-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S400x512 : Shape := ⟨2, ![400, 512]⟩
abbrev S400 : Shape := ⟨1, ![400]⟩
abbrev S300x400 : Shape := ⟨2, ![300, 400]⟩
abbrev S300 : Shape := ⟨1, ![300]⟩
abbrev S64x300 : Shape := ⟨2, ![64, 300]⟩
abbrev S64 : Shape := ⟨1, ![64]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S400x512 : S_.BroadcastsInDim S400x512 (![] : Fin 0 → Fin S400x512.rank)
  reducesTo_S400x512_S_d0_1 : S400x512.ReducesTo [0, 1] S_
  bcast_S_S400 : S_.BroadcastsInDim S400 (![] : Fin 0 → Fin S400.rank)
  reducesTo_S400_S_d0 : S400.ReducesTo [0] S_
  bcast_S_S300x400 : S_.BroadcastsInDim S300x400 (![] : Fin 0 → Fin S300x400.rank)
  reducesTo_S300x400_S_d0_1 : S300x400.ReducesTo [0, 1] S_
  bcast_S_S300 : S_.BroadcastsInDim S300 (![] : Fin 0 → Fin S300.rank)
  reducesTo_S300_S_d0 : S300.ReducesTo [0] S_
  bcast_S_S64x300 : S_.BroadcastsInDim S64x300 (![] : Fin 0 → Fin S64x300.rank)
  reducesTo_S64x300_S_d0_1 : S64x300.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S300 .f32) (main_arg5 : FVec F S64x300 .f32) (main_arg6 : FVec F S64 .f32) (main_v13 : IVec S_ 1) (main_v16 : IVec S300x400 1) : IVec S_ 1 :=
  let main_c_5 : IVec S_ 1 := constantI S_ 1 1#1
  let main_v17 : IVec S_ 1 := (fun x v => Host.reduce IntOp.andi x v reducesTo_S300x400_S_d0_1 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S64x300 .f32 := Host.absf main_arg5
  let main_cst_8 : FVec F S_ .f32 := constant S_ .f32 0x7F800000#32
  let main_v25 : FVec F S64x300 .f32 := broadcastInDim S64x300 ![] bcast_S_S64x300 main_cst_8
  let main_v26 : IVec S64x300 1 := cmpf .olt main_v24 main_v25
  let main_c_9 : IVec S_ 1 := constantI S_ 1 1#1
  let main_v27 : IVec S_ 1 := (fun x v => Host.reduce IntOp.andi x v reducesTo_S64x300_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S131072x512 .f32) (main_arg1 : FVec F S400x512 .f32) (main_arg2 : FVec F S400 .f32) (main_arg3 : FVec F S300x400 .f32) (main_arg4 : FVec F S300 .f32) (main_arg5 : FVec F S64x300 .f32) (main_arg6 : FVec F S64 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S400x512 .f32 := Host.absf main_arg1
  let main_cst_0 : FVec F S_ .f32 := constant S_ .f32 0x7F800000#32
  let main_v5 : FVec F S400x512 .f32 := broadcastInDim S400x512 ![] bcast_S_S400x512 main_cst_0
  let main_v6 : IVec S400x512 1 := cmpf .olt main_v4 main_v5
  let main_c_1 : IVec S_ 1 := constantI S_ 1 1#1
  let main_v7 : IVec S_ 1 := (fun x v => Host.reduce IntOp.andi x v reducesTo_S400x512_S_d0_1 h_S_) main_v6 main_c_1
  let main_v8 : IVec S_ 1 := andi main_v3 main_v7
  let main_v9 : FVec F S400 .f32 := Host.absf main_arg2
  let main_cst_2 : FVec F S_ .f32 := constant S_ .f32 0x7F800000#32
  let main_v10 : FVec F S400 .f32 := broadcastInDim S400 ![] bcast_S_S400 main_cst_2
  let main_v11 : IVec S400 1 := cmpf .olt main_v9 main_v10
  let main_c_3 : IVec S_ 1 := constantI S_ 1 1#1
  let main_v12 : IVec S_ 1 := (fun x v => Host.reduce IntOp.andi x v reducesTo_S400_S_d0 h_S_) main_v11 main_c_3
  let main_v13 : IVec S_ 1 := andi main_v8 main_v12
  let main_v14 : FVec F S300x400 .f32 := Host.absf main_arg3
  let main_cst_4 : FVec F S_ .f32 := constant S_ .f32 0x7F800000#32
  let main_v15 : FVec F S300x400 .f32 := broadcastInDim S300x400 ![] bcast_S_S300x400 main_cst_4
  let main_v16 : IVec S300x400 1 := cmpf .olt main_v14 main_v15
  fn_part1 (F := F) main_arg4 main_arg5 main_arg6 main_v13 main_v16
-- ==== Kernel.lean ====
abbrev S131072x512 : Shape := ⟨2, ![131072, 512]⟩
abbrev S400x512 : Shape := ⟨2, ![400, 512]⟩
abbrev S400 : Shape := ⟨1, ![400]⟩
abbrev S300x400 : Shape := ⟨2, ![300, 400]⟩
abbrev S300 : Shape := ⟨1, ![300]⟩
abbrev S64x300 : Shape := ⟨2, ![64, 300]⟩
abbrev S64 : Shape := ⟨1, ![64]⟩
abbrev S131072x64 : Shape := ⟨2, ![131072, 64]⟩
abbrev S2048x512 : Shape := ⟨2, ![2048, 512]⟩
abbrev S2048x64 : Shape := ⟨2, ![2048, 64]⟩
abbrev S2048x400 : Shape := ⟨2, ![2048, 400]⟩
abbrev S1x400 : Shape := ⟨2, ![1, 400]⟩
abbrev S2048x300 : Shape := ⟨2, ![2048, 300]⟩
abbrev S1x300 : Shape := ⟨2, ![1, 300]⟩
abbrev S1x64 : Shape := ⟨2, ![1, 64]⟩
abbrev S2048x63 : Shape := ⟨2, ![2048, 63]⟩
abbrev S2048x1 : Shape := ⟨2, ![2048, 1]⟩
abbrev S2048 : Shape := ⟨1, ![2048]⟩

abbrev nBuf : Space → Nat
  | .hbm => 8
  | .vmem => 10
  | .smem => 0
  | _ => 0

abbrev bufTy : (tb : Table) → Fin (tcTables nBuf tb) → BufTy
  | .hbm, ⟨0, _⟩ => ⟨S131072x512, .f32⟩
  | .hbm, ⟨1, _⟩ => ⟨S400x512, .f32⟩
  | .hbm, ⟨2, _⟩ => ⟨S400, .f32⟩
  | .hbm, ⟨3, _⟩ => ⟨S300x400, .f32⟩
  | .hbm, ⟨4, _⟩ => ⟨S300, .f32⟩
  | .hbm, ⟨5, _⟩ => ⟨S64x300, .f32⟩
  | .hbm, ⟨6, _⟩ => ⟨S64, .f32⟩
  | .hbm, ⟨7, _⟩ => ⟨S131072x64, .f32⟩
  | .local _ .vmem, ⟨0, _⟩ => ⟨S2048x512, .f32⟩
  | .local _ .vmem, ⟨1, _⟩ => ⟨S2048x512, .f32⟩
  | .local _ .vmem, ⟨2, _⟩ => ⟨S400x512, .f32⟩
  | .local _ .vmem, ⟨3, _⟩ => ⟨S400, .f32⟩
  | .local _ .vmem, ⟨4, _⟩ => ⟨S300x400, .f32⟩
  | .local _ .vmem, ⟨5, _⟩ => ⟨S300, .f32⟩
  | .local _ .vmem, ⟨6, _⟩ => ⟨S64x300, .f32⟩
  | .local _ .vmem, ⟨7, _⟩ => ⟨S64, .f32⟩
  | .local _ .vmem, ⟨8, _⟩ => ⟨S2048x64, .f32⟩
  | .local _ .vmem, ⟨9, _⟩ => ⟨S2048x64, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S400x512_S400x512_0_0 : ∀ a, (![0, 0] : Fin 2 → Nat) a + S400x512.size a ≤ S400x512.size a
  h_S400x512 : 0 < S400x512.numel
  inb_S400_S400_0 : ∀ a, (![0] : Fin 1 → Nat) a + S400.size a ≤ S400.size a
  h_S400 : 0 < S400.numel
  shapeCasts_S400_S1x400 : S400.ShapeCasts S1x400
  broadcasts_S1x400_S2048x400 : S1x400.Broadcasts S2048x400
  inb_S300x400_S300x400_0_0 : ∀ a, (![0, 0] : Fin 2 → Nat) a + S300x400.size a ≤ S300x400.size a
  h_S300x400 : 0 < S300x400.numel
  inb_S300_S300_0 : ∀ a, (![0] : Fin 1 → Nat) a + S300.size a ≤ S300.size a
  h_S300 : 0 < S300.numel
  shapeCasts_S300_S1x300 : S300.ShapeCasts S1x300
  broadcasts_S1x300_S2048x300 : S1x300.Broadcasts S2048x300
  inb_S64x300_S64x300_0_0 : ∀ a, (![0, 0] : Fin 2 → Nat) a + S64x300.size a ≤ S64x300.size a
  h_S64x300 : 0 < S64x300.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  slices_S2048x64_o0_0_S2048x63 : S2048x64.Slices ![0, 0] S2048x63
  slices_S2048x64_o0_63_S2048x1 : S2048x64.Slices ![0, 63] S2048x1
  reduces_S2048x63_S2048 : S2048x63.Reduces [1] S2048
  shapeCasts_S2048_S2048x1 : S2048.ShapeCasts S2048x1
  broadcasts_S2048x1_S2048x63 : S2048x1.Broadcasts S2048x63
  concatenates_S2048x63_S2048x1_S2048x64_d1 : Shape.Concatenates [S2048x63, S2048x1] S2048x64 1
  inb_S2048x64_S2048x64_0_0 : ∀ a, (![0, 0] : Fin 2 → Nat) a + S2048x64.size a ≤ S2048x64.size a
  h_S2048x64 : 0 < S2048x64.numel
  dot_S2048x512_S400x512_S2048x400_1_1_0_0_n_n_wf : DotDims.WF S2048x512 S400x512 S2048x400 [1] [1] [0] [0] [] []
  dot_S2048x400_S300x400_S2048x300_1_1_0_0_n_n_wf : DotDims.WF S2048x400 S300x400 S2048x300 [1] [1] [0] [0] [] []
  dot_S2048x300_S64x300_S2048x64_1_1_0_0_n_n_wf : DotDims.WF S2048x300 S64x300 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x512.size a ≤ S400x512.size a
  hwx0_1 : ∀ i : grid0.Coords, EltTy.bits .f32 = 32 ∨ (Rect.block (s := S400x512) S400x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400.size a ≤ S400.size a
  hwx0_2 : ∀ i : grid0.Coords, EltTy.bits .f32 = 32 ∨ (Rect.block (s := S400) S400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x400.size a ≤ S300x400.size a
  hwx0_3 : ∀ i : grid0.Coords, EltTy.bits .f32 = 32 ∨ (Rect.block (s := S300x400) S300x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x300.size a ≤ S64x300.size a
  hwx0_5 : ∀ i : grid0.Coords, EltTy.bits .f32 = 32 ∨ (Rect.block (s := S64x300) S64x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S131072x64.size a
  hwx0_7 : ∀ i : grid0.Coords, EltTy.bits .f32 = 32 ∨ (Rect.block (s := S131072x64) S2048x64.size (cc0_transform_7 i) (hinb0_7 i)).WholeWords (EltTy.packing .f32)

variable [Facts₀]

def dot_S2048x512_S400x512_S2048x400_1_1_0_0_n_n : DotDims S2048x512 S400x512 S2048x400 where
  lhsContracting := [1]
  rhsContracting := [1]
  lhsNonContracting := [0]
  rhsNonContracting := [0]
  lhsBatch := []
  rhsBatch := []
  wf := dot_S2048x512_S400x512_S2048x400_1_1_0_0_n_n_wf
def dot_S2048x400_S300x400_S2048x300_1_1_0_0_n_n : DotDims S2048x400 S300x400 S2048x300 where
  lhsContracting := [1]
  rhsContracting := [1]
  lhsNonContracting := [0]
  rhsNonContracting := [0]
  lhsBatch := []
  rhsBatch := []
  wf := dot_S2048x400_S300x400_S2048x300_1_1_0_0_n_n_wf
def dot_S2048x300_S64x300_S2048x64_1_1_0_0_n_n : DotDims S2048x300 S64x300 S2048x64 where
  lhsContracting := [1]
  rhsContracting := [1]
  lhsNonContracting := [0]
  rhsNonContracting := [0]
  lhsBatch := []
  rhsBatch := []
  wf := dot_S2048x300_S64x300_S2048x64_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S300x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x512 : Shape := ⟨2, ![131072, 512]⟩
abbrev S400x512 : Shape := ⟨2, ![400, 512]⟩
abbrev S400 : Shape := ⟨1, ![400]⟩
abbrev S300x400 : Shape := ⟨2, ![300, 400]⟩
abbrev S300 : Shape := ⟨1, ![300]⟩
abbrev S64x300 : Shape := ⟨2, ![64, 300]⟩
abbrev S64 : Shape := ⟨1, ![64]⟩
abbrev S512x400 : Shape := ⟨2, ![512, 400]⟩
abbrev S131072x400 : Shape := ⟨2, ![131072, 400]⟩
abbrev S1x400 : Shape := ⟨2, ![1, 400]⟩
abbrev S_ : Shape := ⟨0, ![]⟩
abbrev S400x300 : Shape := ⟨2, ![400, 300]⟩
abbrev S131072x300 : Shape := ⟨2, ![131072, 300]⟩
abbrev S1x300 : Shape := ⟨2, ![1, 300]⟩
abbrev S300x64 : Shape := ⟨2, ![300, 64]⟩
abbrev S131072x64 : Shape := ⟨2, ![131072, 64]⟩
abbrev S1x64 : Shape := ⟨2, ![1, 64]⟩
abbrev S131072x63 : Shape := ⟨2, ![131072, 63]⟩
abbrev S131072x1 : Shape := ⟨2, ![131072, 1]⟩
abbrev S131072 : Shape := ⟨1, ![131072]⟩

abbrev nBuf : Space → Nat
  | .hbm => 53
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S400x512, .f32⟩
  | .hbm, ⟨2, _⟩ => ⟨S400, .f32⟩
  | .hbm, ⟨3, _⟩ => ⟨S300x400, .f32⟩
  | .hbm, ⟨4, _⟩ => ⟨S300, .f32⟩
  | .hbm, ⟨5, _⟩ => ⟨S64x300, .f32⟩
  | .hbm, ⟨6, _⟩ => ⟨S64, .f32⟩
  | .hbm, ⟨7, _⟩ => ⟨S512x400, .f32⟩
  | .hbm, ⟨8, _⟩ => ⟨S131072x400, .f32⟩
  | .hbm, ⟨9, _⟩ => ⟨S1x400, .f32⟩
  | .hbm, ⟨10, _⟩ => ⟨S131072x400, .f32⟩
  | .hbm, ⟨11, _⟩ => ⟨S131072x400, .f32⟩
  | .hbm, ⟨12, _⟩ => ⟨S_, .f32⟩
  | .hbm, ⟨13, _⟩ => ⟨S131072x400, .f32⟩
  | .hbm, ⟨14, _⟩ => ⟨S131072x400, .f32⟩
  | .hbm, ⟨15, _⟩ => ⟨S400x300, .f32⟩
  | .hbm, ⟨16, _⟩ => ⟨S131072x300, .f32⟩
  | .hbm, ⟨17, _⟩ => ⟨S1x300, .f32⟩
  | .hbm, ⟨18, _⟩ => ⟨S131072x300, .f32⟩
  | .hbm, ⟨19, _⟩ => ⟨S131072x300, .f32⟩
  | .hbm, ⟨20, _⟩ => ⟨S_, .f32⟩
  | .hbm, ⟨21, _⟩ => ⟨S131072x300, .f32⟩
  | .hbm, ⟨22, _⟩ => ⟨S131072x300, .f32⟩
  | .hbm, ⟨23, _⟩ => ⟨S300x64, .f32⟩
  | .hbm, ⟨24, _⟩ => ⟨S131072x64, .f32⟩
  | .hbm, ⟨25, _⟩ => ⟨S1x64, .f32⟩
  | .hbm, ⟨26, _⟩ => ⟨S131072x64, .f32⟩
  | .hbm, ⟨27, _⟩ => ⟨S131072x64, .f32⟩
  | .hbm, ⟨28, _⟩ => ⟨S131072x63, .f32⟩
  | .hbm, ⟨29, _⟩ => ⟨S131072x63, .f32⟩
  | .hbm, ⟨30, _⟩ => ⟨S131072x1, .f32⟩
  | .hbm, ⟨31, _⟩ => ⟨S131072x1, .f32⟩
  | .hbm, ⟨32, _⟩ => ⟨S131072x1, .f32⟩
  | .hbm, ⟨33, _⟩ => ⟨S_, .f32⟩
  | .hbm, ⟨34, _⟩ => ⟨S131072x1, .f32⟩
  | .hbm, ⟨35, _⟩ => ⟨S131072x1, .f32⟩
  | .hbm, ⟨36, _⟩ => ⟨S_, .f32⟩
  | .hbm, ⟨37, _⟩ => ⟨S131072x1, .f32⟩
  | .hbm, ⟨38, _⟩ => ⟨S131072x1, .f32⟩
  | .hbm, ⟨39, _⟩ => ⟨S_, .f32⟩
  | .hbm, ⟨40, _⟩ => ⟨S131072x63, .f32⟩
  | .hbm, ⟨41, _⟩ => ⟨S131072x63, .i1⟩
  | .hbm, ⟨42, _⟩ => ⟨S_, .f32⟩
  | .hbm, ⟨43, _⟩ => ⟨S_, .f32⟩
  | .hbm, ⟨44, _⟩ => ⟨S131072x63, .f32⟩
  | .hbm, ⟨45, _⟩ => ⟨S131072x63, .f32⟩
  | .hbm, ⟨46, _⟩ => ⟨S_, .f32⟩
  | .hbm, ⟨47, _⟩ => ⟨S131072, .f32⟩
  | .hbm, ⟨48, _⟩ => ⟨S131072x1, .f32⟩
  | .hbm, ⟨49, _⟩ => ⟨S131072x63, .f32⟩
  | .hbm, ⟨50, _⟩ => ⟨S131072x63, .f32⟩
  | .hbm, ⟨51, _⟩ => ⟨S131072x63, .f32⟩
  | .hbm, ⟨52, _⟩ => ⟨S131072x64, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  transposes_S400x512_S512x400_1_0 : S400x512.Transposes [1, 0] S512x400
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  bcast_S_S131072x400 : S_.BroadcastsInDim S131072x400 (![] : Fin 0 → Fin S131072x400.rank)
  transposes_S300x400_S400x300_1_0 : S300x400.Transposes [1, 0] S400x300
  bcast_S300_S1x300_1 : S300.BroadcastsInDim S1x300 (![1] : Fin 1 → Fin S1x300.rank)
  bcast_S1x300_S131072x300_0_1 : S1x300.BroadcastsInDim S131072x300 (![0, 1] : Fin 2 → Fin S131072x300.rank)
  bcast_S_S131072x300 : S_.BroadcastsInDim S131072x300 (![] : Fin 0 → Fin S131072x300.rank)
  transposes_S64x300_S300x64_1_0 : S64x300.Transposes [1, 0] S300x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  slices_S131072x64_S131072x63_0_0 : S131072x64.Slices ![0, 0] S131072x63
  slices_S131072x64_S131072x1_0_63 : S131072x64.Slices ![0, 63] S131072x1
  bcast_S_S131072x1 : S_.BroadcastsInDim S131072x1 (![] : Fin 0 → Fin S131072x1.rank)
  bcast_S_S131072x63 : S_.BroadcastsInDim S131072x63 (![] : Fin 0 → Fin S131072x63.rank)
  reducesTo_S131072x63_S131072_d1 : S131072x63.ReducesTo [1] S131072
  h_S_ : 0 < S_.numel
  bcast_S131072_S131072x1_0 : S131072.BroadcastsInDim S131072x1 (![0] : Fin 1 → Fin S131072x1.rank)
  bcast_S131072x1_S131072x63_0_1 : S131072x1.BroadcastsInDim S131072x63 (![0, 1] : Fin 2 → Fin S131072x63.rank)
  concatenates_S131072x63_S131072x1_S131072x64_d1 : Shape.Concatenates [S131072x63, S131072x1] S131072x64 1
  dot_S131072x512_S512x400_S131072x400_1_0_0_1_n_n_wf : DotDims.WF S131072x512 S512x400 S131072x400 [1] [0] [0] [1] [] []
  dot_S131072x400_S400x300_S131072x300_1_0_0_1_n_n_wf : DotDims.WF S131072x400 S400x300 S131072x300 [1] [0] [0] [1] [] []
  dot_S131072x300_S300x64_S131072x64_1_0_0_1_n_n_wf : DotDims.WF S131072x300 S300x64 S131072x64 [1] [0] [0] [1] [] []

variable [Facts₀]

def dot_S131072x512_S512x400_S131072x400_1_0_0_1_n_n : DotDims S131072x512 S512x400 S131072x400 where
  lhsContracting := [1]
  rhsContracting := [0]
  lhsNonContracting := [0]
  rhsNonContracting := [1]
  lhsBatch := []
  rhsBatch := []
  wf := dot_S131072x512_S512x400_S131072x400_1_0_0_1_n_n_wf
def dot_S131072x400_S400x300_S131072x300_1_0_0_1_n_n : DotDims S131072x400 S400x300 S131072x300 where
  lhsContracting := [1]
  rhsContracting := [0]
  lhsNonContracting := [0]
  rhsNonContracting := [1]
  lhsBatch := []
  rhsBatch := []
  wf := dot_S131072x400_S400x300_S131072x300_1_0_0_1_n_n_wf
def dot_S131072x300_S300x64_S131072x64_1_0_0_1_n_n : DotDims S131072x300 S300x64 S131072x64 where
  lhsContracting := [1]
  rhsContracting := [0]
  lhsNonContracting := [0]
  rhsNonContracting := [1]
  lhsBatch := []
  rhsBatch := []
  wf := dot_S131072x300_S300x64_S131072x64_1_0_0_1_n_n_wf

class Facts : Prop extends Facts₀ where

variable [Facts]
-- ==== Proof.ActorRow.lean ====
/-
  One row of the actor network, as a function on the extended reals.

  A row `x` of 512 numbers goes through three affine layers (inner products with the rows of a weight matrix, plus a
  bias), the first two followed by the rectifier `max · 0`; that gives 64 numbers `y`. The first 63 are squashed by
  `tanh`; those that come out positive are divided by the sum of the positive ones, the others are kept; the 64th
  is squashed by the logistic function instead. Both programs compute exactly this for every row of the state
  array, so the whole result is this function applied row by row (`result`).

  Nothing here uses a law of arithmetic: the two programs differ only in how they lay the numbers out (blocks of
  2048 rows against the whole array, a weight matrix read transposed against a transposed copy of it), so the
  specification is written with the very operations both apply, in the order both apply them.
-/
import Idealize.ShloMosaic.Lib.ValueIdx
import Idealize.ShloMosaic.PureOps.Ideal.Laws

noncomputable section

namespace Cert.ActorRow

open Idealize.ShloMosaic Idealize.ShloMosaic.ValueIdx

/-- The f32 word of `0.0`, as both programs write it. -/
abbrev zero : EReal := Ideal.ofBits .f32 0x00000000#32

/-- One unit of an affine layer: the inner product of the row with the unit's weights, plus the unit's bias. -/
def affine {K N : ℕ} (W : (⟨2, ![N, K]⟩ : Shape).Idx → EReal) (b : (⟨1, ![N]⟩ : Shape).Idx → EReal)
    (x : Fin K → EReal) (n : Fin N) : EReal :=
  (∑ k : Fin K, x k * W (ix2 n k)) + b (ix1 n)

/-- The rectifier, against the zero word. -/
def relu (z : EReal) : EReal := max z zero

/-- The three layers: 512 → 400 → 300 → 64, rectified after the first two. -/
def logits (W1 : (⟨2, ![400, 512]⟩ : Shape).Idx → EReal) (b1 : (⟨1, ![400]⟩ : Shape).Idx → EReal)
    (W2 : (⟨2, ![300, 400]⟩ : Shape).Idx → EReal) (b2 : (⟨1, ![300]⟩ : Shape).Idx → EReal)
    (W3 : (⟨2, ![64, 300]⟩ : Shape).Idx → EReal) (b3 : (⟨1, ![64]⟩ : Shape).Idx → EReal)
    (x : Fin 512 → EReal) : Fin 64 → EReal :=
  affine W3 b3 fun a => relu (affine W2 b2 (fun a' => relu (affine W1 b1 x a')) a)

/-- The first 63 outputs, squashed by `tanh`. -/
def head (y : Fin 64 → EReal) (j : Fin 63) : EReal := Ideal.tanh (y j.castSucc)

/-- Whether a squashed output is above zero, as the one-bit word a comparison returns. -/
def isPos (y : Fin 64 → EReal) (j : Fin 63) : BitVec 1 := Ideal.cmp .ogt (head y j) zero

/-- The sum of the positive squashed outputs of the row. -/
def posMass (y : Fin 64 → EReal) : EReal := ∑ k : Fin 63, Scalar.select (isPos y k) (head y k) zero

/-- A positive squashed output divided by that sum; any other kept. -/
def normalized (y : Fin 64 → EReal) (j : Fin 63) : EReal :=
  Scalar.select (isPos y j) (Ideal.div (head y j) (posMass y)) (head y j)

/-- The last output, squashed by the logistic function. -/
def gate (y : Fin 64 → EReal) : EReal := Ideal.logistic (y (Fin.last 63))

/-- The row's 64 results: the 63 normalized outputs, then the gate. -/
def out (y : Fin 64 → EReal) (j : Fin 64) : EReal :=
  if h : j.val < 63 then normalized y ⟨j.val, h⟩ else gate y

/-- The whole result: row `r` of the state array through the network, for an array of any number of rows. -/
def result {B : ℕ} (X : (⟨2, ![B, 512]⟩ : Shape).Idx → EReal)
    (W1 : (⟨2, ![400, 512]⟩ : Shape).Idx → EReal) (b1 : (⟨1, ![400]⟩ : Shape).Idx → EReal)
    (W2 : (⟨2, ![300, 400]⟩ : Shape).Idx → EReal) (b2 : (⟨1, ![300]⟩ : Shape).Idx → EReal)
    (W3 : (⟨2, ![64, 300]⟩ : Shape).Idx → EReal) (b3 : (⟨1, ![64]⟩ : Shape).Idx → EReal) :
    (⟨2, ![B, 64]⟩ : Shape).Idx → EReal :=
  fun i => out (logits W1 b1 W2 b2 W3 b3 fun k => X (ix2 (i 0) k)) (i 1)

/-- `out` at one of the first 63 columns. -/
theorem out_head (y : Fin 64 → EReal) (j : Fin 63) : out y j.castSucc = normalized y j := by
  unfold out
  rw [dif_pos (by simp : (j.castSucc : Fin 64).val < 63)]
  rfl

/-- `out` at the last column. -/
theorem out_last (y : Fin 64 → EReal) : out y (Fin.last 63) = gate y := by
  unfold out
  rw [dif_neg (by simp)]

end Cert.ActorRow

end
-- ==== Proof.LibMatmulRows.lean ====
/-
  A matrix product whose right factor is stored row by row, read at an index.

  For `l` of `M` rows and `K` columns and `r` of `N` rows and `K` columns, the product that contracts the last axis of
  both (`l · rᵀ`) into a zero accumulator has, at `(p, n)`, the inner product of row `p` of `l` with row `n` of `r`:
  `∑ k, l (p, k) * r (n, k)`. On the extended reals the accumulator's zero adds nothing, and the contraction index,
  which the dimension record keeps as a one-axis shape, is re-indexed by its one coordinate. Stated for the dimension
  record `DotDims.transposedRhs M K N`; a printed record with the same six lists is that record (its last field is a
  proof), so the lemma applies to it after a `show`.
-/
import Idealize.ShloMosaic.Lib.ValueIdx
import Idealize.ShloMosaic.PureOps.Ideal.Laws

noncomputable section

namespace Cert.LibMatmulRows

open Idealize.ShloMosaic Idealize.ShloMosaic.ValueIdx

variable {M K N : ℕ}

/-- The left operand's index keeps the output's row. -/
theorem lhs_axis0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction coordinate. -/
theorem lhs_axis1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem rhs_axis0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction coordinate. -/
theorem rhs_axis1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- `l · rᵀ` into the zero accumulator, at `(p, n)`: the inner product of row `p` of `l` and row `n` of `r`. -/
theorem matmul_zero_apply {φ₁ φ₂ : FTy} (l : FVec Ideal ⟨2, ![M, K]⟩ φ₁) (r : FVec Ideal ⟨2, ![N, K]⟩ φ₂)
    (prec : Option ContractPrecision) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p n) ((contrEquiv1 (DotDims.transposedRhs M K N) K rfl rfl).symm k) = ix2 p k :=
    funext fun a => Fin.ext (by
      match a with
      | ⟨0, _⟩ => exact lhs_axis0 _ _
      | ⟨1, _⟩ => exact (lhs_axis1 _ _).trans hk)
  have er : (DotDims.transposedRhs M K N).rhsIdx (ix2 p n) ((contrEquiv1 (DotDims.transposedRhs M K N) K rfl rfl).symm k) = ix2 n k :=
    funext fun a => Fin.ext (by
      match a with
      | ⟨0, _⟩ => exact rhs_axis0 _ _
      | ⟨1, _⟩ => exact (rhs_axis1 _ _).trans hk)
  rw [el, er]

end Cert.LibMatmulRows

end
-- ==== Proof.LibJoinColumn.lean ====
/-
  A matrix with one more column joined on its right, read at an index.

  Joining `x` of `a` rows and `b` columns with a one-column `y` of `a` rows, along the columns, gives `a` rows of
  `b + 1` entries: entry `(p, k)` is `x (p, k)` for `k` below `b`, and `y (p, 0)` at `k = b`. The column index of the
  result is taken as any `k : Fin c` with its value stated, so that the lemmas apply whether the width is written
  `b + 1` or as a literal.
-/
import Idealize.ShloMosaic.Lib.Pipeline.Value
import Idealize.ShloMosaic.Lib.ValueIdx

noncomputable section

namespace Cert.LibJoinColumn

open Idealize.ShloMosaic Idealize.ShloMosaic.ValueIdx

variable {α : Type}

/-- Left of the joined column the result is the wide piece. -/
theorem join_left {a b c : ℕ} (x : (⟨2, ![a, b]⟩ : Shape).Idx → α) (y : (⟨2, ![a, 1]⟩ : Shape).Idx → α)
    (h : Shape.Concatenates [⟨2, ![a, b]⟩, ⟨2, ![a, 1]⟩] ⟨2, ![a, c]⟩ 1) (p : Fin a) (j : Fin b) (k : Fin c)
    (hk : k.val = j.val) :
    concatenate ⟨2, ![a, c]⟩ 1 [⟨⟨2, ![a, b]⟩, x⟩, ⟨⟨2, ![a, 1]⟩, y⟩] h (ix2 p k) = x (ix2 p j) :=
  concatenate_pair_apply_left 1 x y h (ix2 p k) rfl (ix2 p j) fun d => by
    match d with
    | ⟨0, _⟩ => rfl
    | ⟨1, _⟩ => exact hk.symm

/-- At the joined column the result is the one-column piece. -/
theorem join_right {a b c : ℕ} (x : (⟨2, ![a, b]⟩ : Shape).Idx → α) (y : (⟨2, ![a, 1]⟩ : Shape).Idx → α)
    (h : Shape.Concatenates [⟨2, ![a, b]⟩, ⟨2, ![a, 1]⟩] ⟨2, ![a, c]⟩ 1) (p : Fin a) (k : Fin c)
    (hk : k.val = b) :
    concatenate ⟨2, ![a, c]⟩ 1 [⟨⟨2, ![a, b]⟩, x⟩, ⟨⟨2, ![a, 1]⟩, y⟩] h (ix2 p k) = y (ix2 p (0 : Fin 1)) :=
  concatenate_pair_apply_right 1 x y h (ix2 p k) rfl rfl (ix2 p (0 : Fin 1))
    (fun d hd => by
      match d with
      | ⟨0, _⟩ => rfl
      | ⟨1, _⟩ => exact absurd rfl hd)
    (by show (0 : ℕ) + b = k.val; omega)

end Cert.LibJoinColumn

end
-- ==== Proof.LibColumn.lean ====
/-
  A vector laid out as a one-column matrix, read at an index.

  Reshaping an array of `a` entries to `a` rows of one entry each moves nothing: row-major, entry `(i, u)` of the
  column sits at position `i * 1 + u`, and the unit coordinate `u` can only be `0`, so that position is `i`, where
  entry `i` of the vector sits. Stated with both indices built from their coordinates, so that the lemma applies
  to a printed reshape by unification.
-/
import Idealize.ShloMosaic.Lib.ValueLayout

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The same at an arbitrary index `j` of the column: it reads the operand at `j`'s row. -/
theorem shapeCast_a_a1_apply' {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) := by
  rw [eq_ix2 j]
  exact shapeCast_a_a1_apply x h (j 0) (j 1)

end Cert.LibColumn

end
-- ==== Proof.LibColumnBroadcast.lean ====
/-
  A one-column matrix spread over many columns, read at an index.

  Broadcasting an array of `a` rows of one entry each to `a` rows of `b` entries repeats each row's entry along
  its row: entry `(p, c)` of the result is the operand's entry `(p, 0)`, whatever the column `c`. Stated with both
  indices built from their coordinates, so that the lemma applies to a printed broadcast by unification.
-/
import Idealize.ShloMosaic.Lib.ValueLayout

noncomputable section

namespace Cert.LibColumnBroadcast

open Idealize.ShloMosaic Idealize.ShloMosaic.ValueIdx

variable {α : Type}

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast

end
-- ==== Proof.KernelRows.lean ====
/-
  The kernel body's result for one block, read one row at a time.

  The body works on a block of 2048 rows of the state array and on the whole weight and bias arrays. Its matrix
  products contract the last axis of both factors, so entry `(p, n)` of a layer is the inner product of row `p` of the
  block with row `n` of the weights, and the bias, reshaped to one row and repeated down the block, is the bias at
  `n`; the changes of float format in between are the identity on the extended reals. So every intermediate value at
  `(p, ·)` is the corresponding stage of `ActorRow` on the row `k ↦ block (p, k)`: the lane sum of the positive squashed
  outputs is the row's sum, turned into a column and repeated along the row it reaches every column of that row, and
  the stored value joins the 63 normalized columns with the logistic column.
-/
import proofs.«124314_j33698313404512_1_alg».proof.Proof.Gen.KernelIdeal.Skeleton
import proofs.«124314_j33698313404512_1_alg».proof.Proof.ActorRow
import proofs.«124314_j33698313404512_1_alg».proof.Proof.LibMatmulRows
import proofs.«124314_j33698313404512_1_alg».proof.Proof.LibJoinColumn
import proofs.«124314_j33698313404512_1_alg».proof.Proof.LibColumn
import proofs.«124314_j33698313404512_1_alg».proof.Proof.LibColumnBroadcast
import Idealize.ShloMosaic.Lib.ValueLayout

noncomputable section

namespace Cert.ActorKernel

open Cert.KernelIdeal Cert.KernelIdeal.Gen Idealize.ShloMosaic Idealize.ShloMosaic.ValueIdx
open Cert.ActorRow

/-! ## One layer at an entry -/

/-- A product with the weights' rows plus the bias repeated down the rows, at `(p, n)`: the affine unit `n` on row `p`. -/
theorem dense_row {M K N : ℕ} (D : DotDims ⟨2, ![M, K]⟩ ⟨2, ![N, K]⟩ ⟨2, ![M, N]⟩) (hD : D = DotDims.transposedRhs M K N)
    (x : FVec Ideal ⟨2, ![M, K]⟩ .bf16) (W : FVec Ideal ⟨2, ![N, K]⟩ .bf16) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (n : Fin N) :
    addf (matmul D none x W (constant ⟨2, ![M, N]⟩ .f32 0x00000000#32))
        (broadcastTo ⟨2, ![M, N]⟩ (shapeCast ⟨2, ![1, N]⟩ b hc) hb) (ix2 p n)
      = affine W b (fun k => x (ix2 p k)) n := by
  subst hD
  show FloatOps.matmul (DotDims.transposedRhs M K N) none x W (constant ⟨2, ![M, N]⟩ .f32 0x00000000#32) (ix2 p n)
      + broadcastTo ⟨2, ![M, N]⟩ (shapeCast ⟨2, ![1, N]⟩ b hc) hb (ix2 p n) = _
  rw [LibMatmulRows.matmul_zero_apply, broadcastTo_1b_ab_apply, shapeCast_a_1a_apply]
  rfl

section
variable (x : FVec Ideal S2048x512 .bf16) (h1 : FVec Ideal S2048x400 .bf16) (h2 : FVec Ideal S2048x300 .bf16)
  (W1 : FVec Ideal S400x512 .bf16) (b1 : Vec Ideal S400 .f32) (W2 : FVec Ideal S300x400 .bf16) (b2 : Vec Ideal S300 .f32)
  (W3 : FVec Ideal S64x300 .bf16) (b3 : Vec Ideal S64 .f32)

/-- The first layer's pre-activation at `(p, n)`. -/
theorem dense1 (p : Fin 2048) (n : Fin 400) :
    addf (matmul dot_S2048x512_S400x512_S2048x400_1_1_0_0_n_n none x W1 (constant S2048x400 .f32 0x00000000#32))
        (broadcastTo S2048x400 (shapeCast S1x400 b1 shapeCasts_S400_S1x400) broadcasts_S1x400_S2048x400) (ix2 p n)
      = affine W1 b1 (fun k => x (ix2 p k)) n :=
  dense_row _ rfl x W1 b1 _ _ p n

/-- The second layer's pre-activation at `(p, n)`. -/
theorem dense2 (p : Fin 2048) (n : Fin 300) :
    addf (matmul dot_S2048x400_S300x400_S2048x300_1_1_0_0_n_n none h1 W2 (constant S2048x300 .f32 0x00000000#32))
        (broadcastTo S2048x300 (shapeCast S1x300 b2 shapeCasts_S300_S1x300) broadcasts_S1x300_S2048x300) (ix2 p n)
      = affine W2 b2 (fun k => h1 (ix2 p k)) n :=
  dense_row _ rfl h1 W2 b2 _ _ p n

/-- The third layer's pre-activation at `(p, n)`. -/
theorem dense3 (p : Fin 2048) (n : Fin 64) :
    addf (matmul dot_S2048x300_S64x300_S2048x64_1_1_0_0_n_n none h2 W3 (constant S2048x64 .f32 0x00000000#32))
        (broadcastTo S2048x64 (shapeCast S1x64 b3 shapeCasts_S64_S1x64) broadcasts_S1x64_S2048x64) (ix2 p n)
      = affine W3 b3 (fun k => h2 (ix2 p k)) n :=
  dense_row _ rfl h2 W3 b3 _ _ p n

end

/-- The rectifier followed by the change of format, at an entry. -/
theorem relu_at {s : Shape} (A : FVec Ideal s .f32) (h : FTy.bits .bf16 < FTy.bits .f32) (i : s.Idx) :
    (truncf .bf16 (maximumf A (broadcast s (Scalar.ofBits .f32 0x00000000#32))) h : FVec Ideal s .bf16) i = relu (A i) := rfl

/-! ## The payloads, row by row -/

section
variable (v0 : Vec Ideal S2048x512 .f32) (v2 : Vec Ideal S400x512 .f32) (v5 : Vec Ideal S400 .f32)
  (v12 : Vec Ideal S300x400 .f32) (v15 : Vec Ideal S300 .f32) (v22 : Vec Ideal S64x300 .f32) (v25 : Vec Ideal S64 .f32)

/-- Row `p` of the block. -/
abbrev brow (p : Fin 2048) : Fin 512 → EReal := fun k => v0 (ix2 p k)

/-- The row's 64 pre-activations. -/
theorem logits_row (p : Fin 2048) (j : Fin 64) :
    k0_pay2 (F := Ideal) v0 v2 v5 v12 v15 v22 v25 (ix2 p j) = logits v2 v5 v12 v15 v22 v25 (brow v0 p) j := by
  unfold k0_pay2
  simp only [dense3, relu_at, dense2, dense1]
  rfl

/-- The squashed outputs. -/
theorem head_row (p : Fin 2048) (j : Fin 63) :
    k0_pay3 (F := Ideal) v0 v2 v5 v12 v15 v22 v25 (ix2 p j) = head (logits v2 v5 v12 v15 v22 v25 (brow v0 p)) j := by
  unfold k0_pay3
  show FloatOps.tanh (extractStridedSlice S2048x63 ![0, 0] (k0_pay2 (F := Ideal) v0 v2 v5 v12 v15 v22 v25)
    slices_S2048x64_o0_0_S2048x63 (ix2 p j)) = _
  rw [slice2_axis1_apply 0 _ _ p j j.castSucc (Nat.zero_add _).symm, logits_row]
  rfl

/-- The logistic column. -/
theorem gate_row (p : Fin 2048) :
    k0_pay4 (F := Ideal) v0 v2 v5 v12 v15 v22 v25 (ix2 p (0 : Fin 1)) = gate (logits v2 v5 v12 v15 v22 v25 (brow v0 p)) := by
  unfold k0_pay4
  show FloatOps.logistic (extractStridedSlice S2048x1 ![0, 63] (k0_pay2 (F := Ideal) v0 v2 v5 v12 v15 v22 v25)
    slices_S2048x64_o0_63_S2048x1 (ix2 p (0 : Fin 1))) = _
  rw [slice2_axis1_apply 63 _ _ p (0 : Fin 1) (Fin.last 63) rfl, logits_row]
  rfl

/-- The comparison with zero. -/
theorem pos_row (p : Fin 2048) (j : Fin 63) :
    k0_pay5 (F := Ideal) v0 v2 v5 v12 v15 v22 v25 (ix2 p j) = isPos (logits v2 v5 v12 v15 v22 v25 (brow v0 p)) j := by
  unfold k0_pay5
  show FloatOps.cmpf .ogt (k0_pay3 (F := Ideal) v0 v2 v5 v12 v15 v22 v25 (ix2 p j)) _ = _
  rw [head_row]
  rfl

/-- A lane sum over the 63 columns from the zero word, at row `p`: the row's sum. -/
theorem lane_sum (src : FVec Ideal S2048x63 .f32) (h : S2048x63.Reduces [1] S2048) (hφ : FKind.Formats .f32)
    (hacc : (0x00000000#32 : BitVec 32) = 0x00000000#32) (p : Fin 2048) :
    multiReduction .add [1] S2048 src 0x00000000#32 h hφ hacc (ix1 p) = ∑ k : Fin 63, src (ix2 p k) := by
  refine (Ideal.multiReduction_add_single src 0x00000000#32 h hφ hacc (ix1 p)).trans ?_
  refine Finset.sum_congr rfl fun k _ => congrArg src (funext fun d => Fin.ext ?_)
  match d with
  | ⟨0, _⟩ => rfl
  | ⟨1, _⟩ => rfl

/-- The row's sum of positive squashed outputs, as it reaches column `j`. -/
theorem mass_row (p : Fin 2048) (j : Fin 63) :
    k0_pay6 (F := Ideal) v0 v2 v5 v12 v15 v22 v25 (ix2 p j) = posMass (logits v2 v5 v12 v15 v22 v25 (brow v0 p)) := by
  unfold k0_pay6
  refine (LibColumnBroadcast.broadcastTo_a1_ab_apply _ _ p j).trans ?_
  refine (LibColumn.shapeCast_a_a1_apply _ _ p (0 : Fin 1)).trans ?_
  refine (lane_sum _ _ _ _ p).trans ?_
  unfold posMass
  refine Finset.sum_congr rfl fun k _ => ?_
  show Scalar.select (k0_pay5 (F := Ideal) v0 v2 v5 v12 v15 v22 v25 (ix2 p k))
    (k0_pay3 (F := Ideal) v0 v2 v5 v12 v15 v22 v25 (ix2 p k)) _ = _
  rw [pos_row, head_row]
  rfl

/-- THE STORED VALUE at `(p, q)`: the network's result for row `p` of the block. -/
theorem stored_row (p : Fin 2048) (q : Fin 64) :
    k0_pay1 (F := Ideal) (k0_pay3 v0 v2 v5 v12 v15 v22 v25) (k0_pay4 v0 v2 v5 v12 v15 v22 v25)
        (k0_pay5 v0 v2 v5 v12 v15 v22 v25) (k0_pay6 v0 v2 v5 v12 v15 v22 v25) (ix2 p q)
      = out (logits v2 v5 v12 v15 v22 v25 (brow v0 p)) q := by
  unfold k0_pay1
  induction q using Fin.lastCases with
  | last =>
    rw [out_last]
    exact (LibJoinColumn.join_right _ _ _ p (Fin.last 63) rfl).trans (gate_row v0 v2 v5 v12 v15 v22 v25 p)
  | cast j =>
    rw [out_head]
    refine (LibJoinColumn.join_left _ _ _ p j j.castSucc rfl).trans ?_
    show Scalar.select (k0_pay5 (F := Ideal) v0 v2 v5 v12 v15 v22 v25 (ix2 p j))
      (Ideal.div (k0_pay3 (F := Ideal) v0 v2 v5 v12 v15 v22 v25 (ix2 p j)) (k0_pay6 (F := Ideal) v0 v2 v5 v12 v15 v22 v25 (ix2 p j)))
      (k0_pay3 (F := Ideal) v0 v2 v5 v12 v15 v22 v25 (ix2 p j)) = _
    rw [pos_row, head_row, mass_row]
    rfl

end

end Cert.ActorKernel

end
-- ==== Proof.KernelArray.lean ====
/-
  From the blocks to the whole result array.

  The grid has 64 points; point `t` reads rows `2048 t … 2048 t + 2047` of the state array and the whole of every
  weight and bias array, and writes rows `2048 t … 2048 t + 2047` of the result. What it writes at row `p` of its block
  is the network's result for row `p` of the block it read, which is row `2048 t + p` of the state array: so each point
  writes its block of the one array `ActorRow.result` of the arguments, the 64 blocks tile the result array, and the
  array ends holding `ActorRow.result`.
-/
import proofs.«124314_j33698313404512_1_alg».proof.Proof.Gen.KernelIdeal.Value
import proofs.«124314_j33698313404512_1_alg».proof.Proof.KernelRows

noncomputable section

namespace Cert.ActorKernel

open Cert.KernelIdeal Cert.KernelIdeal.Gen Cert.KernelIdeal.Value Idealize.ShloMosaic Idealize.ShloMosaic.TcCoe Idealize.SL.Sem
open Idealize.ShloMosaic.ValueIdx Cert.ActorRow
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- What the body leaves in the result's buffer at `(p, q)`, from the blocks it loaded: the network's result for row
    `p` of the state block. -/
theorem body_row (x0 : Vec Ideal S2048x512 .f32) (x1 : Vec Ideal S400x512 .f32) (x2 : Vec Ideal S400 .f32)
    (x3 : Vec Ideal S300x400 .f32) (x4 : Vec Ideal S300 .f32) (x5 : Vec Ideal S64x300 .f32) (x6 : Vec Ideal S64 .f32)
    (p : Fin 2048) (q : Fin 64) :
    out0_7 (F := Ideal) x0 x1 x2 x3 x4 x5 x6 (ix2 p q) = out (logits x1 x2 x3 x4 x5 x6 (brow x0 p)) q := by
  unfold out0_7
  rw [View.canon_unit_zero hz2]
  simp only [View.ld_unit_zero (S := S2048x512) hz2, View.ld_unit_zero (S := S400x512) hz2, View.ld_unit_zero (S := S400) hz1,
    View.ld_unit_zero (S := S300x400) hz2, View.ld_unit_zero (S := S300) hz1, View.ld_unit_zero (S := S64x300) hz2,
    View.ld_unit_zero (S := S64) hz1]
  exact stored_row x0 x1 x2 x3 x4 x5 x6 p q

variable (m : (ℓ : Loc nD τ sig) → Buf (Elt Ideal) ℓ) (ρ : Dev nD → PrngReg)

/-- The printed index maps over the 64 grid points: the state and the result move one block of rows per point, every
    other window stays on its one block. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) ≤ 63 ∧ win0_7.index t (1 : Fin 2) = 0 :=
  (by decide +kernel : ∀ t : Fin grid0.N, _)

/-- Every block of rows of the result is some point's. -/
theorem idx_onto : ∀ q0 : Fin 64, ∃ t : Fin cfg0.N, win0_7.index t = ![q0.val, 0] :=
  (by decide +kernel : ∀ q0 : Fin 64, ∃ t : Fin grid0.N, win0_7.index t = ![q0.val, 0])

/-! ## The argument arrays and the blocks a point loads, at their literal types -/

abbrev stateArr (c : Dev nD) : Vec Ideal S131072x512 .f32 := V m c main_arg0
abbrev w1Arr (c : Dev nD) : Vec Ideal S400x512 .f32 := V m c main_arg1
abbrev b1Arr (c : Dev nD) : Vec Ideal S400 .f32 := V m c main_arg2
abbrev w2Arr (c : Dev nD) : Vec Ideal S300x400 .f32 := V m c main_arg3
abbrev b2Arr (c : Dev nD) : Vec Ideal S300 .f32 := V m c main_arg4
abbrev w3Arr (c : Dev nD) : Vec Ideal S64x300 .f32 := V m c main_arg5
abbrev b3Arr (c : Dev nD) : Vec Ideal S64 .f32 := V m c main_arg6

abbrev stateBlk (c : Dev nD) (t : Fin cfg0.N) : Vec Ideal S2048x512 .f32 := iblk m c 0 t
abbrev w1Blk (c : Dev nD) (t : Fin cfg0.N) : Vec Ideal S400x512 .f32 := iblk m c 1 t
abbrev b1Blk (c : Dev nD) (t : Fin cfg0.N) : Vec Ideal S400 .f32 := iblk m c 2 t
abbrev w2Blk (c : Dev nD) (t : Fin cfg0.N) : Vec Ideal S300x400 .f32 := iblk m c 3 t
abbrev b2Blk (c : Dev nD) (t : Fin cfg0.N) : Vec Ideal S300 .f32 := iblk m c 4 t
abbrev w3Blk (c : Dev nD) (t : Fin cfg0.N) : Vec Ideal S64x300 .f32 := iblk m c 5 t
abbrev b3Blk (c : Dev nD) (t : Fin cfg0.N) : Vec Ideal S64 .f32 := iblk m c 6 t

/-- The one block of a weight or bias array is the array. -/
theorem w1Blk_eq (c : Dev nD) (t : Fin cfg0.N) : w1Blk m c t = w1Arr m c := by
  obtain ⟨-, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 400 + 1 * (y 0).val = (y 0).val; omega
  | ⟨1, _⟩ => show win0_1.index t (1 : Fin 2) * 512 + 1 * (y 1).val = (y 1).val; omega
theorem b1Blk_eq (c : Dev nD) (t : Fin cfg0.N) : b1Blk m c t = b1Arr m c := by
  obtain ⟨-, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 400 + 1 * (y 0).val = (y 0).val; omega
theorem w2Blk_eq (c : Dev nD) (t : Fin cfg0.N) : w2Blk m c t = w2Arr m c := by
  obtain ⟨-, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 300 + 1 * (y 0).val = (y 0).val; omega
  | ⟨1, _⟩ => show win0_3.index t (1 : Fin 2) * 400 + 1 * (y 1).val = (y 1).val; omega
theorem b2Blk_eq (c : Dev nD) (t : Fin cfg0.N) : b2Blk m c t = b2Arr m c := by
  obtain ⟨-, -, -, -, -, -, -, e0, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 300 + 1 * (y 0).val = (y 0).val; omega
theorem w3Blk_eq (c : Dev nD) (t : Fin cfg0.N) : w3Blk m c t = w3Arr m c := by
  obtain ⟨-, -, -, -, -, -, -, -, e0, e1, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 300 + 1 * (y 1).val = (y 1).val; omega
theorem b3Blk_eq (c : Dev nD) (t : Fin cfg0.N) : b3Blk m c t = b3Arr m c := by
  obtain ⟨-, -, -, -, -, -, -, -, -, -, e0, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 1) * 64 + 1 * (y 0).val = (y 0).val; omega

/-- Row `p` of the state block at point `t` is the row of the state array that row `p` of the result's block is. -/
theorem stateBlk_row (c : Dev nD) (t : Fin cfg0.N) (p : Fin 2048) (q : Fin 64) :
    brow (stateBlk m c t) p = fun k => stateArr m c (ix2 ((((cfg0.win 7).blk t).view.emb (ix2 p q : S2048x64.Idx)) 0) k) := by
  obtain ⟨e0, e1, -⟩ := idx_facts t
  funext k
  show V m c main_arg0 (((cfg0.win 0).blk t).view.emb (ix2 p k : S2048x512.Idx)) = V m c main_arg0 _
  refine congrArg _ (funext fun a => Fin.ext ?_)
  match a with
  | ⟨0, _⟩ => show win0_0.index t (0 : Fin 2) * 2048 + 1 * p.val = win0_7.index t (0 : Fin 2) * 2048 + 1 * p.val; omega
  | ⟨1, _⟩ => show win0_0.index t (1 : Fin 2) * 512 + 1 * k.val = k.val; omega

/-- The whole result as the kernel's arguments give it. -/
abbrev resultArr (c : Dev nD) : Vec Ideal S131072x64 .f32 :=
  result (stateArr m c) (w1Arr m c) (b1Arr m c) (w2Arr m c) (b2Arr m c) (w3Arr m c) (b3Arr m c)

/-- WHAT POINT `t` WRITES BACK is its block of `resultArr`. -/
theorem flushed_eq (c : Dev nD) (t : Fin cfg0.N) :
    (dats m 0 c).flushed 7 t = ((cfg0.win 7).blk t).view.read (Elt Ideal) (resultArr m c) := by
  rw [Value.flushed7]
  obtain ⟨-, -, -, -, -, -, -, -, -, -, -, -, e1⟩ := idx_facts t
  funext (j : S2048x64.Idx)
  obtain ⟨p, q, rfl⟩ : ∃ (p : Fin 2048) (q : Fin 64), j = ix2 p q := ⟨j 0, j 1, eq_ix2 j⟩
  show out0_7 (F := Ideal) (stateBlk m c t) (w1Blk m c t) (b1Blk m c t) (w2Blk m c t) (b2Blk m c t) (w3Blk m c t) (b3Blk m c t) (ix2 p q)
    = out (logits (w1Arr m c) (b1Arr m c) (w2Arr m c) (b2Arr m c) (w3Arr m c) (b3Arr m c)
        fun k => stateArr m c (ix2 ((((cfg0.win 7).blk t).view.emb (ix2 p q : S2048x64.Idx)) 0) k))
      ((((cfg0.win 7).blk t).view.emb (ix2 p q : S2048x64.Idx)) 1)
  rw [body_row, w1Blk_eq, b1Blk_eq, w2Blk_eq, b2Blk_eq, w3Blk_eq, b3Blk_eq, stateBlk_row m c t p q]
  refine congrArg _ (Fin.ext ?_)
  show q.val = win0_7.index t (1 : Fin 2) * 64 + 1 * q.val
  omega

/-- An index of the result is in point `t`'s block iff each coordinate is in the block's range on its axis. -/
theorem mem_blk (t : Fin cfg0.N) (i : S131072x64.Idx) :
    i ∈ ((cfg0.win 7).blk t).view.set ↔ ∀ a : Fin 2, win0_7.index t a * S2048x64.size a ≤ (i a).val ∧ (i a).val < win0_7.index t a * S2048x64.size a + S2048x64.size a := by
  show i ∈ ((View.whole main_v0).slice (win0_7.rect t)).set ↔ _
  rw [View.set_slice_whole, Rect.mem_set_unit]
  exact Iff.rfl

/-- The 64 blocks cover the result: row `r` is in the block of point `r / 2048`. -/
theorem cover (i : S131072x64.Idx) :
    ∃ t : Fin cfg0.N, (cfg0.win 7).flush t = true ∧ i ∈ ((cfg0.win 7).blk t).view.set := by
  have hi0 : (i 0).val < 131072 := (i 0).isLt
  have hi1 : (i 1).val < 64 := (i 1).isLt
  obtain ⟨t, ht⟩ := idx_onto ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 64 ≤ (i 1).val ∧ (i 1).val < win0_7.index t (1 : Fin 2) * 64 + 64; omega

/-- THE RESULT ARRAY after the run is `resultArr`. -/
theorem final (c : Dev nD) : (dats m 0 c).arrAt 7 cfg0.N = resultArr m c :=
  (dats m 0 c).arrAt_eq_of_cover 7 (resultArr m c) (fun t _ => flushed_eq m c t) cover

/-- The kernel's run: the result array at the network applied row by row to the arguments, the arguments unchanged. -/
theorem run : θ_run defs (onTc (τ := τ) (main (F := Ideal))) ⟨m, fun _ => 0, ρ⟩ fun r => ∀ c : Dev nD,
      r.2.mem ((c : Thread nD τ).loc main_v0) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ActorKernel

end
-- ==== Proof.RefRows.lean ====
/-
  The reference program's result, read one row at a time.

  The reference runs the three affine layers on the whole state array, with each weight matrix transposed first and
  each bias spread over the rows. Read at row `r`, every stage depends on row `r` of the state alone: the matrix
  product's entry `(r, n)` is the inner product of that row with row `n` of the untransposed weights, the spread
  bias is the bias at `n`. So each stage at `(r, ·)` is the corresponding stage of `ActorRow` on the row
  `k ↦ state (r, k)`; the sum of the positive squashed outputs starts from the zero word, which adds nothing on the
  extended reals, and the logistic function is written out as `1 / (1 + e^(-y))` with both ones the f32 word of
  `1.0`, which denotes `1`.
-/
import proofs.«124314_j33698313404512_1_alg».proof.Proof.Gen.ReferenceIdeal.Read
import proofs.«124314_j33698313404512_1_alg».proof.Proof.ActorRow
import proofs.«124314_j33698313404512_1_alg».proof.Proof.LibJoinColumn

noncomputable section

namespace Cert.ActorRef

open Cert.ReferenceIdeal Cert.ReferenceIdeal.Gen Cert.ReferenceIdeal.Read Idealize.ShloMosaic Idealize.ShloMosaic.ValueIdx
open Cert.ActorRow

/-! ## The stages' index functions at an index given by its coordinates -/

theorem lidx1 (r : Fin 131072) (a : Fin 400) (k : Fin 512) : lidx_main_v1 (ix2 r a) k = ix2 r k :=
  funext fun d => Fin.ext (by match d with | ⟨0, _⟩ => rfl | ⟨1, _⟩ => rfl)
theorem ridx1 (r : Fin 131072) (a : Fin 400) (k : Fin 512) : idx_main_v0 (ridx_main_v1 (ix2 r a) k) = ix2 a k :=
  funext fun d => Fin.ext (by match d with | ⟨0, _⟩ => rfl | ⟨1, _⟩ => rfl)
theorem bidx1 (r : Fin 131072) (a : Fin 400) : idx_main_v2 (idx_main_v3 (ix2 r a)) = ix1 a :=
  funext fun d => Fin.ext (by match d with | ⟨0, _⟩ => rfl)

theorem lidx2 (r : Fin 131072) (a : Fin 300) (k : Fin 400) : lidx_main_v7 (ix2 r a) k = ix2 r k :=
  funext fun d => Fin.ext (by match d with | ⟨0, _⟩ => rfl | ⟨1, _⟩ => rfl)
theorem ridx2 (r : Fin 131072) (a : Fin 300) (k : Fin 400) : idx_main_v6 (ridx_main_v7 (ix2 r a) k) = ix2 a k :=
  funext fun d => Fin.ext (by match d with | ⟨0, _⟩ => rfl | ⟨1, _⟩ => rfl)
theorem bidx2 (r : Fin 131072) (a : Fin 300) : idx_main_v8 (idx_main_v9 (ix2 r a)) = ix1 a :=
  funext fun d => Fin.ext (by match d with | ⟨0, _⟩ => rfl)

theorem lidx3 (r : Fin 131072) (a : Fin 64) (k : Fin 300) : lidx_main_v13 (ix2 r a) k = ix2 r k :=
  funext fun d => Fin.ext (by match d with | ⟨0, _⟩ => rfl | ⟨1, _⟩ => rfl)
theorem ridx3 (r : Fin 131072) (a : Fin 64) (k : Fin 300) : idx_main_v12 (ridx_main_v13 (ix2 r a) k) = ix2 a k :=
  funext fun d => Fin.ext (by match d with | ⟨0, _⟩ => rfl | ⟨1, _⟩ => rfl)
theorem bidx3 (r : Fin 131072) (a : Fin 64) : idx_main_v14 (idx_main_v15 (ix2 r a)) = ix1 a :=
  funext fun d => Fin.ext (by match d with | ⟨0, _⟩ => rfl)

theorem headIdx (r : Fin 131072) (j : Fin 63) : idx_main_v17 (ix2 r j) = ix2 r j.castSucc :=
  funext fun d => Fin.ext (by match d with | ⟨0, _⟩ => rfl | ⟨1, _⟩ => rfl)
theorem lastIdx (r : Fin 131072) : idx_main_v19 (ix2 r (0 : Fin 1)) = ix2 r (Fin.last 63) :=
  funext fun d => Fin.ext (by match d with | ⟨0, _⟩ => rfl | ⟨1, _⟩ => rfl)
theorem sumIdx (r : Fin 131072) (k : Fin 63) : idx_main_v29 (ix1 r) k = ix2 r k :=
  funext fun d => Fin.ext (by match d with | ⟨0, _⟩ => rfl | ⟨1, _⟩ => rfl)
theorem spreadIdx (r : Fin 131072) (j : Fin 63) : idx_main_v30 (idx_main_v31 (ix2 r j)) = ix1 r :=
  funext fun d => Fin.ext (by match d with | ⟨0, _⟩ => rfl)

/-! ## The stages, row by row -/

section
variable (x0 : (⟨S131072x512, .f32⟩ : BufTy).Contents (Elt Ideal)) (x1 : (⟨S400x512, .f32⟩ : BufTy).Contents (Elt Ideal))
  (x2 : (⟨S400, .f32⟩ : BufTy).Contents (Elt Ideal)) (x3 : (⟨S300x400, .f32⟩ : BufTy).Contents (Elt Ideal))
  (x4 : (⟨S300, .f32⟩ : BufTy).Contents (Elt Ideal)) (x5 : (⟨S64x300, .f32⟩ : BufTy).Contents (Elt Ideal))
  (x6 : (⟨S64, .f32⟩ : BufTy).Contents (Elt Ideal))

/-- Row `r` of the state array. -/
abbrev row (r : Fin 131072) : Fin 512 → EReal := fun k => x0 (ix2 r k)

/-- The first layer, rectified, at `(r, a)`. -/
theorem layer1 (r : Fin 131072) (a : Fin 400) :
    val_main_v5 (F := Ideal) x0 x1 x2 (ix2 r a) = relu (affine x1 x2 (row x0 r) a) := by
  rw [val_main_v5_apply, val_main_v4_apply, val_main_v1_apply, val_main_v3_apply, val_main_v2_apply,
    val_main_call0_v0_apply, val_main_call0_cst_apply]
  simp only [val_main_v0_apply, lidx1, ridx1, bidx1]
  rfl

/-- The second layer, rectified, at `(r, a)`. -/
theorem layer2 (r : Fin 131072) (a : Fin 300) :
    val_main_v11 (F := Ideal) x0 x1 x2 x3 x4 (ix2 r a)
      = relu (affine x3 x4 (fun a' => relu (affine x1 x2 (row x0 r) a')) a) := by
  rw [val_main_v11_apply, val_main_v10_apply, val_main_v7_apply, val_main_v9_apply, val_main_v8_apply,
    val_main_call1_v0_apply, val_main_call1_cst_apply]
  simp only [val_main_v6_apply, lidx2, ridx2, bidx2, layer1]
  rfl

/-- The third layer at `(r, j)`: the row's 64 pre-activations. -/
theorem layer3 (r : Fin 131072) (j : Fin 64) :
    val_main_v16 (F := Ideal) x0 x1 x2 x3 x4 x5 x6 (ix2 r j) = logits x1 x2 x3 x4 x5 x6 (row x0 r) j := by
  rw [val_main_v16_apply, val_main_v13_apply, val_main_v15_apply, val_main_v14_apply]
  simp only [val_main_v12_apply, lidx3, ridx3, bidx3, layer2]
  rfl

/-- The squashed outputs at `(r, j)`. -/
theorem squashed (r : Fin 131072) (j : Fin 63) :
    val_main_v18 (F := Ideal) x0 x1 x2 x3 x4 x5 x6 (ix2 r j) = head (logits x1 x2 x3 x4 x5 x6 (row x0 r)) j := by
  rw [val_main_v18_apply, val_main_v17_apply, headIdx, layer3]
  rfl

/-- The comparison with zero at `(r, j)`. -/
theorem positive (r : Fin 131072) (j : Fin 63) :
    val_main_v27 (F := Ideal) x0 x1 x2 x3 x4 x5 x6 (ix2 r j) = isPos (logits x1 x2 x3 x4 x5 x6 (row x0 r)) j := by
  rw [val_main_v27_apply, squashed, val_main_v26_apply, val_main_cst_1_apply]
  rfl

/-- The row's sum of positive squashed outputs. -/
theorem mass (r : Fin 131072) :
    val_main_v29 (F := Ideal) x0 x1 x2 x3 x4 x5 x6 (ix1 r) = posMass (logits x1 x2 x3 x4 x5 x6 (row x0 r)) := by
  rw [val_main_v29_apply, val_main_cst_3_apply]
  simp only [sumIdx, val_main_v28_apply, positive, squashed, val_main_call2_v1_apply, val_main_call2_v0_apply,
    val_main_cst_2_apply]
  show Ideal.ofBits .f32 0x00000000#32 + _ = _
  rw [Ideal.ofBits_zero_f32, zero_add]
  rfl

/-- The normalized outputs at `(r, j)`. -/
theorem normal (r : Fin 131072) (j : Fin 63) :
    val_main_v33 (F := Ideal) x0 x1 x2 x3 x4 x5 x6 (ix2 r j) = normalized (logits x1 x2 x3 x4 x5 x6 (row x0 r)) j := by
  rw [val_main_v33_apply, val_main_v32_apply, val_main_v31_apply, val_main_v30_apply, spreadIdx, mass, positive, squashed]
  rfl

/-- The gate at `(r, 0)`: `1 / (1 + e^(-y))` is the logistic function. -/
theorem gated (r : Fin 131072) :
    val_main_v25 (F := Ideal) x0 x1 x2 x3 x4 x5 x6 (ix2 r (0 : Fin 1)) = gate (logits x1 x2 x3 x4 x5 x6 (row x0 r)) := by
  rw [val_main_v25_apply, val_main_v24_apply, val_main_cst_0_apply, val_main_v23_apply, val_main_v22_apply,
    val_main_cst_apply, val_main_v21_apply, val_main_v20_apply, val_main_v19_apply, lastIdx, layer3]
  show Ideal.div (Ideal.ofBits .f32 0x3F800000#32) (Ideal.ofBits .f32 0x3F800000#32 + Ideal.exp (-_)) = Ideal.logistic _
  rw [show Ideal.ofBits .f32 0x3F800000#32 = 1 from IdealRules.sign_bit.ideal_onePat .f32]
  rfl

/-- THE REFERENCE'S RESULT is the network applied row by row. -/
theorem result_eq :
    val_main_v34 (F := Ideal) x0 x1 x2 x3 x4 x5 x6 = result x0 x1 x2 x3 x4 x5 x6 := by
  funext i
  obtain ⟨r, q, rfl⟩ : ∃ (r : Fin 131072) (q : Fin 64), i = ix2 r q := ⟨i 0, i 1, eq_ix2 i⟩
  show _ = out (logits x1 x2 x3 x4 x5 x6 (row x0 r)) q
  unfold val_main_v34
  induction q using Fin.lastCases with
  | last =>
    rw [out_last]
    exact (LibJoinColumn.join_right _ _ _ r (Fin.last 63) rfl).trans (gated x0 x1 x2 x3 x4 x5 x6 r)
  | cast j =>
    rw [out_head]
    exact (LibJoinColumn.join_left _ _ _ r j j.castSucc rfl).trans (normal x0 x1 x2 x3 x4 x5 x6 r j)

end

end Cert.ActorRef

end
-- ==== Proof.lean ====
/-
  The actor network of three affine layers: the blocked kernel against the whole-array reference, over the extended
  reals.

  Both programs send every row of the state array through `max (W₁ x + b₁) 0`, `max (W₂ · + b₂) 0` and `W₃ · + b₃`,
  squash the first 63 of the 64 outputs by `tanh` and the last by the logistic function, and divide the positive
  squashed outputs by their sum (`Proof/ActorRow.lean`, the function of one row). The kernel does it 2048 rows at a
  time, multiplying by the weight matrices' rows in place and passing through bf16, which changes nothing on the
  extended reals (`Proof/KernelRows.lean`: the body's result for a block, row by row; `Proof/KernelArray.lean`: the 64
  blocks tile the result array). The reference transposes the weights and works on the whole array, and spells the
  logistic function as `1 / (1 + e^(-y))` (`Proof/RefRows.lean`). Both result arrays are `ActorRow.result` of the
  arguments; no law of arithmetic beyond `0 + s = s` and the value of the word of `1.0` is used, so the precondition
  is never opened. The three programs' runs and their unchanged arguments are the generated frames and the reference's
  generated run; the idealization rewrote nothing, so it preserves the kernel trivially.
-/
import proofs.«124314_j33698313404512_1_alg».proof.Defs
import proofs.«124314_j33698313404512_1_alg».proof.Proof.Gen.Kernel
import proofs.«124314_j33698313404512_1_alg».proof.Proof.Gen.Kernel.Skeleton
import proofs.«124314_j33698313404512_1_alg».proof.Proof.Gen.Kernel.Launch
import proofs.«124314_j33698313404512_1_alg».proof.Proof.Gen.Kernel.Points
import proofs.«124314_j33698313404512_1_alg».proof.Proof.Gen.Kernel.Frame
import proofs.«124314_j33698313404512_1_alg».proof.Proof.Gen.KernelIdeal
import proofs.«124314_j33698313404512_1_alg».proof.Proof.Gen.KernelIdeal.Skeleton
import proofs.«124314_j33698313404512_1_alg».proof.Proof.Gen.KernelIdeal.Launch
import proofs.«124314_j33698313404512_1_alg».proof.Proof.Gen.KernelIdeal.Points
import proofs.«124314_j33698313404512_1_alg».proof.Proof.Gen.KernelIdeal.Frame
import proofs.«124314_j33698313404512_1_alg».proof.Proof.Gen.ReferenceIdeal
import proofs.«124314_j33698313404512_1_alg».proof.Proof.Gen.Pre_finite_inputs
import proofs.«124314_j33698313404512_1_alg».proof.Proof.Gen.KernelIdeal.Value
import proofs.«124314_j33698313404512_1_alg».proof.Proof.Gen.ReferenceIdeal.Run
import proofs.«124314_j33698313404512_1_alg».proof.Proof.Gen.ReferenceIdeal.Read
import proofs.«124314_j33698313404512_1_alg».proof.Proof.KernelArray
import proofs.«124314_j33698313404512_1_alg».proof.Proof.RefRows
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the network applied row by row to them. -/
theorem algebraic : Cert.algebraic_KernelIdeal_ReferenceIdeal := by
  intro m ρ m' ρ' _ hagree
  refine ⟨fun c => Cert.ActorKernel.resultArr m c, Cert.ActorKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ActorRef.result_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
